-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x7 : Shape := ⟨2, ![100000, 7]⟩
abbrev S2000x7 : Shape := ⟨2, ![2000, 7]⟩
abbrev S3300000x7 : Shape := ⟨2, ![3300000, 7]⟩
abbrev S1x7 : Shape := ⟨2, ![1, 7]⟩

abbrev nBuf : Space → Nat
  | .hbm => 89
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S16x7, .f32⟩
  | .local _ .vmem, ⟨8, _⟩ => ⟨S2000x7, .f32⟩
  | .local _ .vmem, ⟨9, _⟩ => ⟨S2000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x7_S16x7_0_0 : ∀ a, (![0, 0] : Fin 2 → Nat) a + S16x7.size a ≤ S16x7.size a
  h_S16x7 : 0 < S16x7.numel
  inb_S2000x7_S2000x7_0_0 : ∀ a, (![0, 0] : Fin 2 → Nat) a + S2000x7.size a ≤ S2000x7.size a
  h_S2000x7 : 0 < S2000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x7_S2000x7_1_0_0_1_n_n_wf : DotDims.WF S2000x16 S16x7 S2000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x7.size a ≤ S100000x7.size a
  hwx1_2 : ∀ i : grid1.Coords, EltTy.bits .f32 = 32 ∨ (Rect.block (s := S100000x7) S2000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x7_S2000x7_1_0_0_1_n_n : DotDims S2000x16 S16x7 S2000x7 where
  lhsContracting := [1]
  rhsContracting := [0]
  lhsNonContracting := [0]
  rhsNonContracting := [1]
  lhsBatch := []
  rhsBatch := []
  wf := dot_S2000x16_S16x7_S2000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 89
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.Stages.lean ====
import proofs.«100246_j86938728005962_1_alg».proof.Proof.Gen.KernelIdeal

/-!
# The host side of the two-layer graph convolution, stage by stage

Both programs compute, from the edge list `e : i32[2, 3200000]`, the features `x`, and the layers' weights and biases,

* the edge ends with one self loop per node appended: `srcs e`, `dsts e : i32[3300000]`;
* the in-degree `degree d` (a scatter-add of ones at the destinations), its inverse square root where the degree is
  positive and zero elsewhere (`dinv`), and the edge weight `norm s d = dinv[s] · dinv[d]`;
* a layer: gather the transformed features at the sources, scale each row by its edge's weight, scatter-add the rows at
  the destinations, add the bias (`layer16`, `layer7`), with a `max(·, 0)` between the two layers (`relu16`).

The two programs differ only in how the dense products `x · W1` and `h · W2` are computed, so the result is stated as
ONE function `result mm16 mm7` of the two products; a certificate proves each program's result is `result` of its own
products and that the products agree. The stages are the printed host operations, composed; they are never opened.
-/

noncomputable section

namespace Cert.KernelIdeal.Stages

open Cert.KernelIdeal Cert.KernelIdeal.Gen Idealize.ShloMosaic

variable {F : FTy → Type} [FloatOps F]

/-- An integer array of 32-bit words of shape `S`. -/
abbrev TI (F : FTy → Type) (S : Shape) : Type := (⟨S, .i32⟩ : BufTy).Contents (Elt F)
/-- A float array of shape `S`. -/
abbrev TF (F : FTy → Type) (S : Shape) : Type := (⟨S, .f32⟩ : BufTy).Contents (Elt F)

/-- One row of the edge list, followed by the self loops `0, 1, …, 99999`. -/
def ends (row : Fin 2 → Nat) (h : S2x3200000.Slices row S1x3200000) (e : TI F S2x3200000) : TI F S3300000 :=
  concatenate S3300000 0 [⟨S3200000, (shapeCast _ (extractStridedSlice S1x3200000 row e h) shapeCasts_S1x3200000_S3200000)⟩, ⟨S100000, (iotaInDim S100000 32 0)⟩] concatenates_S3200000_S100000_S3300000_d0

/-- The edges' sources (row 0), self loops appended. -/
def srcs (e : TI F S2x3200000) : TI F S3300000 := ends ![0, 0] slices_S2x3200000_S1x3200000_0_0 e
/-- The edges' destinations (row 1), self loops appended. -/
def dsts (e : TI F S2x3200000) : TI F S3300000 := ends ![1, 0] slices_S2x3200000_S1x3200000_1_0 e

/-- A vector of node numbers laid as a column of start indices. -/
def col (v : TI F S3300000) : TI F S3300000x1 := broadcastInDim S3300000x1 ![0] bcast_S3300000_S3300000x1_0 v

/-- The negative-index wrap (`v + 100000` where `v < 0`, else `v`), laid as a column of start indices. -/
def wrapCol (v : TI F S3300000) : TI F S3300000x1 :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- The in-degree: ones scatter-added at the destinations. -/
def degree (d : TI F S3300000) : TF F S100000 :=
  Host.scatterAdd scatter_S100000_S3300000x1_S3300000_n_0_0_1 (broadcastInDim S100000 ![] bcast_S_S100000 (constant S_ .f32 0x00000000#32)) (col d) (broadcastInDim S3300000 ![] bcast_S_S3300000 (constant S_ .f32 0x3F800000#32))

/-- `degree ^ (-1/2)` where the degree is positive, zero elsewhere. -/
def dinv (d : TI F S3300000) : TF F S100000 :=
  select (cmpf (F := F) .ogt (degree d) (broadcastInDim S100000 ![] bcast_S_S100000 (constant S_ .f32 0x00000000#32))) (Host.rsqrt (degree d)) (broadcastInDim S100000 ![] bcast_S_S100000 (id (constant S_ .f32 0x00000000#32)))

/-- The symmetric normalisation's weight of each edge: `dinv[src] · dinv[dst]`. -/
def norm (s d : TI F S3300000) : TF F S3300000 :=
  mulf (Host.gather gather_S100000_S3300000x1_S3300000_n_0_n_n_0_1_1 (dinv d) (wrapCol s)) (Host.gather gather_S100000_S3300000x1_S3300000_n_0_n_n_0_1_1 (dinv d) (wrapCol d))

/-- The first layer's aggregation: rows of `h0` gathered at the sources, scaled by the edge weights, scatter-added at
    the destinations, plus the bias. -/
def layer16 (h0 : TF F S100000x16) (s d : TI F S3300000) (nrm : TF F S3300000) (b : TF F S16) : TF F S100000x16 :=
  addf (Host.scatterAdd scatter_S100000x16_S3300000x1_S3300000x16_1_0_0_1 (broadcastInDim S100000x16 ![] bcast_S_S100000x16 (constant S_ .f32 0x00000000#32)) (col d) (mulf (Host.gather gather_S100000x16_S3300000x1_S3300000x16_1_0_n_n_0_1_116 h0 (wrapCol s)) (broadcastInDim S3300000x16 ![0, 1] bcast_S3300000x1_S3300000x16_0_1 (broadcastInDim S3300000x1 ![0] bcast_S3300000_S3300000x1_0 nrm)))) (broadcastInDim S100000x16 ![0, 1] bcast_S1x16_S100000x16_0_1 (broadcastInDim S1x16 ![1] bcast_S16_S1x16_1 b))

/-- `max(·, 0)`, entry by entry. -/
def relu16 (a : TF F S100000x16) : TF F S100000x16 :=
  maximumf a (broadcastInDim S100000x16 ![] bcast_S_S100000x16 (constant S_ .f32 0x00000000#32))

/-- The second layer's aggregation, as the first over seven columns. -/
def layer7 (h2 : TF F S100000x7) (s d : TI F S3300000) (nrm : TF F S3300000) (b : TF F S7) : TF F S100000x7 :=
  addf (Host.scatterAdd scatter_S100000x7_S3300000x1_S3300000x7_1_0_0_1 (broadcastInDim S100000x7 ![] bcast_S_S100000x7 (constant S_ .f32 0x00000000#32)) (col d) (mulf (Host.gather gather_S100000x7_S3300000x1_S3300000x7_1_0_n_n_0_1_17 h2 (wrapCol s)) (broadcastInDim S3300000x7 ![0, 1] bcast_S3300000x1_S3300000x7_0_1 (broadcastInDim S3300000x1 ![0] bcast_S3300000_S3300000x1_0 nrm)))) (broadcastInDim S100000x7 ![0, 1] bcast_S1x7_S100000x7_0_1 (broadcastInDim S1x7 ![1] bcast_S7_S1x7_1 b))

/-- The hidden layer from the first dense product `h0 = x · W1`. -/
def hidden (h0 : TF F S100000x16) (e : TI F S2x3200000) (b1 : TF F S16) : TF F S100000x16 :=
  relu16 (layer16 h0 (srcs e) (dsts e) (norm (srcs e) (dsts e)) b1)

/-- The result from the second dense product `h2 = hidden · W2`. -/
def output (h2 : TF F S100000x7) (e : TI F S2x3200000) (b2 : TF F S7) : TF F S100000x7 :=
  layer7 h2 (srcs e) (dsts e) (norm (srcs e) (dsts e)) b2

/-- The whole network over two dense products `mm16`, `mm7`. -/
def result (mm16 : TF F S100000x512 → TF F S512x16 → TF F S100000x16) (mm7 : TF F S100000x16 → TF F S16x7 → TF F S100000x7)
    (x : TF F S100000x512) (e : TI F S2x3200000) (w1 : TF F S512x16) (b1 : TF F S16) (w2 : TF F S16x7) (b2 : TF F S7) : TF F S100000x7 :=
  output (mm7 (hidden (mm16 x w1) e b1) w2) e b2

/-- The dense product `[100000, 512] × [512, 16]` as the host's contraction. -/
def dense16 (x : TF F S100000x512) (w : TF F S512x16) : TF F S100000x16 :=
  Host.dotGeneral (DotDims.plain 100000 512 16) none x w

/-- The dense product `[100000, 16] × [16, 7]` as the host's contraction. -/
def dense7 (h : TF F S100000x16) (w : TF F S16x7) : TF F S100000x7 :=
  Host.dotGeneral (DotDims.plain 100000 16 7) none h w

end Cert.KernelIdeal.Stages

end
-- ==== Proof.Tiles.lean ====
import proofs.«100246_j86938728005962_1_alg».proof.Proof.Gen.KernelIdeal.Frame
import proofs.«100246_j86938728005962_1_alg».proof.Proof.LibContract
import proofs.«100246_j86938728005962_1_alg».proof.Proof.Stages
import Idealize.ShloMosaic.Lib.Pipeline.Value
import Idealize.ShloMosaic.Lib.ValueIdx

/-!
# The two kernel regions are the whole dense products

Each region walks the rows of its left operand in 50 blocks of 2000 rows; at a point the body multiplies the row block by
the whole right operand (a matrix product into the zero accumulator) and stores the block of the result. At the ideal
instance a matrix product at an entry is the plain sum `∑ k, a[p, k] · b[k, q]`, the same sum the host's contraction is at
that entry; row `2000 t + p` of the array is row `p` of block `t`, so the block a point writes back is that block of the
whole product, and the 50 blocks cover the result array.
-/

set_option maxRecDepth 16384

noncomputable section

namespace Cert.KernelIdeal.Tiles

open Cert.KernelIdeal Cert.KernelIdeal.Gen Cert.KernelIdeal.Stages
open Idealize.ShloMosaic Idealize.ShloMosaic.TcCoe Idealize.ShloMosaic.ValueIdx Idealize.SL.Sem
open Idealize.ShloMosaic.Pipeline (Dat)

-- the contents a region is entered at: any
variable (V : (c : Dev nD) → (b : Ref sig .tc) → Buf (Elt Ideal) ((c : Thread nD τ).loc b))

theorem hz : (![0, 0] : Fin 2 → Nat) = fun _ => 0 := funext fun a => by fin_cases a <;> rfl

/-! ## Region 0: the product `[100000, 512] × [512, 16]` in row blocks of 2000 -/

/-- The body's product of one row block with the whole weight, at entry `(p, q)`: `∑ k, x[p, k] · w[k, q]`. -/
theorem pay0_apply (x0 : FVec Ideal S2000x512 .f32) (x1 : FVec Ideal S512x16 .f32) (p : Fin 2000) (q : Fin 16) :
    k0_pay1 (F := Ideal) x0 x1 (ix2 p q) = ∑ k : Fin 512, x0 (ix2 p k) * x1 (ix2 k q) := by
  unfold k0_pay1
  exact Cert.LibDense.matmul_plain_zero_apply 2000 512 16 none x0 x1 p q

/-- The whole product at entry `(P, q)`. -/
theorem dense16_apply (X : TF Ideal S100000x512) (W : TF Ideal S512x16) (P : Fin 100000) (q : Fin 16) :
    dense16 X W (ix2 P q) = ∑ k : Fin 512, X (ix2 P k) * W (ix2 k q) :=
  Cert.LibDense.dotGeneral_plain_apply 100000 512 16 none X W P q

/-- The printed index maps over the grid: the features' and the result's row block move with the point, the weight's
    block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows `2000 t … 2000 t + 1999` of the whole product of the arrays the region finds. -/
theorem flushed0 (c : Dev nD) (t : Fin cfg0.N) :
    (dat0 (F := Ideal) V c).flushed 2 t
      = ((cfg0.win 2).blk t).view.read (Elt Ideal) (dense16 (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x16) hz]
  obtain ⟨e0, e1, e2, e3, e4, e5⟩ := idx0 t
  have ht : t.val < 50 := lt_of_lt_of_eq t.isLt (N_0 : cfg0.N = 50)
  funext j
  obtain ⟨p, q, rfl⟩ : ∃ (p : Fin 2000) (q : Fin 16), j = ix2 p q := ⟨j 0, j 1, eq_ix2 j⟩
  have hP : t.val * 2000 + p.val < 100000 := by have := p.isLt; omega
  show k0_pay1 (iblk0 V c 0 t) (iblk0 V c 1 t) (ix2 p q) = dense16 (V c main_arg0) (V c main_arg2) (((cfg0.win 2).blk t).view.emb (ix2 p q))
  have hemb : ((cfg0.win 2).blk t).view.emb (ix2 p q) = ix2 (⟨t.val * 2000 + p.val, hP⟩ : Fin 100000) q := by
    funext a; apply Fin.ext
    match a with
    | ⟨0, _⟩ => show win0_2.index t (0 : Fin 2) * 2000 + 1 * p.val = t.val * 2000 + p.val; omega
    | ⟨1, _⟩ => show win0_2.index t (1 : Fin 2) * 16 + 1 * q.val = q.val; omega
  rw [hemb, dense16_apply]
  refine (pay0_apply (iblk0 V c 0 t) (iblk0 V c 1 t) p q).trans ?_
  refine Finset.sum_congr rfl fun k _ => ?_
  have hx : iblk0 V c 0 t (ix2 p k) = V c main_arg0 (ix2 (⟨t.val * 2000 + p.val, hP⟩ : Fin 100000) k) := by
    show V c main_arg0 (((cfg0.win 0).blk t).view.emb (ix2 p k)) = _
    refine congrArg _ ?_
    funext a; apply Fin.ext
    match a with
    | ⟨0, _⟩ => show win0_0.index t (0 : Fin 2) * 2000 + 1 * p.val = t.val * 2000 + p.val; omega
    | ⟨1, _⟩ => show win0_0.index t (1 : Fin 2) * 512 + 1 * k.val = k.val; omega
  have hw : iblk0 V c 1 t (ix2 k q) = V c main_arg2 (ix2 k q) := by
    show V c main_arg2 (((cfg0.win 1).blk t).view.emb (ix2 k q)) = _
    refine congrArg _ ?_
    funext a; apply Fin.ext
    match a with
    | ⟨0, _⟩ => show win0_1.index t (0 : Fin 2) * 512 + 1 * k.val = k.val; omega
    | ⟨1, _⟩ => show win0_1.index t (1 : Fin 2) * 16 + 1 * q.val = q.val; omega
  rw [hx, hw]

/-- An index of the result is in point `t`'s block iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- Row `r` of the result is written by point `r / 2000`: the blocks cover the array. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : (i 0).val / 2000 < cfg0.N := lt_of_lt_of_eq (by omega : (i 0).val / 2000 < 50) (N_0 : cfg0.N = 50).symm
  obtain ⟨e0, e1, e2, e3, e4, e5⟩ := idx0 ⟨(i 0).val / 2000, hN⟩
  refine ⟨⟨(i 0).val / 2000, hN⟩, flush0_2 _, ?_⟩
  rw [mem_blk0]
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hN⟩ (1 : Fin 2) * 16 ≤ (i 1).val ∧ (i 1).val < win0_2.index ⟨(i 0).val / 2000, hN⟩ (1 : Fin 2) * 16 + 16
    rw [e5]; omega

/-- The result array after region 0: the whole product of the arrays the region finds. -/
theorem final0 (c : Dev nD) : (dat0 (F := Ideal) V c).arrAt 2 cfg0.N = dense16 (V c main_arg0) (V c main_arg2) :=
  (dat0 (F := Ideal) V c).arrAt_eq_of_cover 2 _ (fun t _ => flushed0 V c t) cover0

/-! ## Region 1: the product `[100000, 16] × [16, 7]` in row blocks of 2000 -/

/-- The body's product of one row block with the whole weight, at entry `(p, q)`: `∑ k, x[p, k] · w[k, q]`. -/
theorem pay1_apply (x0 : FVec Ideal S2000x16 .f32) (x1 : FVec Ideal S16x7 .f32) (p : Fin 2000) (q : Fin 7) :
    k1_pay1 (F := Ideal) x0 x1 (ix2 p q) = ∑ k : Fin 16, x0 (ix2 p k) * x1 (ix2 k q) := by
  unfold k1_pay1
  show matmul _ none (shapeCast S2000x16 x0 _) x1 _ (ix2 p q) = _
  rw [shapeCast_self]
  exact Cert.LibDense.matmul_plain_zero_apply 2000 16 7 none x0 x1 p q

/-- The whole product at entry `(P, q)`. -/
theorem dense7_apply (X : TF Ideal S100000x16) (W : TF Ideal S16x7) (P : Fin 100000) (q : Fin 7) :
    dense7 X W (ix2 P q) = ∑ k : Fin 16, X (ix2 P k) * W (ix2 k q) :=
  Cert.LibDense.dotGeneral_plain_apply 100000 16 7 none X W P q

/-- The printed index maps over the grid: the features' and the result's row block move with the point, the weight's
    block stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is rows `2000 t … 2000 t + 1999` of the whole product of the arrays the region finds. -/
theorem flushed1 (c : Dev nD) (t : Fin cfg1.N) :
    (dat1 (F := Ideal) V c).flushed 2 t
      = ((cfg1.win 2).blk t).view.read (Elt Ideal) (dense7 (V c main_v47) (V c main_arg4)) := by
  show (cfg1.win 2).cut (grid1.coords t) ((dat1 V c).after 2 t) = _
  rw [after1_2]
  unfold out1_2
  rw [View.canon_unit_zero hz]
  simp only [View.ld_unit_zero (S := S2000x16) hz, View.ld_unit_zero (S := S16x7) hz]
  obtain ⟨e0, e1, e2, e3, e4, e5⟩ := idx1 t
  have ht : t.val < 50 := lt_of_lt_of_eq t.isLt (N_1 : cfg1.N = 50)
  funext j
  obtain ⟨p, q, rfl⟩ : ∃ (p : Fin 2000) (q : Fin 7), j = ix2 p q := ⟨j 0, j 1, eq_ix2 j⟩
  have hP : t.val * 2000 + p.val < 100000 := by have := p.isLt; omega
  show k1_pay1 (iblk1 V c 0 t) (iblk1 V c 1 t) (ix2 p q) = dense7 (V c main_v47) (V c main_arg4) (((cfg1.win 2).blk t).view.emb (ix2 p q))
  have hemb : ((cfg1.win 2).blk t).view.emb (ix2 p q) = ix2 (⟨t.val * 2000 + p.val, hP⟩ : Fin 100000) q := by
    funext a; apply Fin.ext
    match a with
    | ⟨0, _⟩ => show win1_2.index t (0 : Fin 2) * 2000 + 1 * p.val = t.val * 2000 + p.val; omega
    | ⟨1, _⟩ => show win1_2.index t (1 : Fin 2) * 7 + 1 * q.val = q.val; omega
  rw [hemb, dense7_apply]
  refine (pay1_apply (iblk1 V c 0 t) (iblk1 V c 1 t) p q).trans ?_
  refine Finset.sum_congr rfl fun k _ => ?_
  have hx : iblk1 V c 0 t (ix2 p k) = V c main_v47 (ix2 (⟨t.val * 2000 + p.val, hP⟩ : Fin 100000) k) := by
    show V c main_v47 (((cfg1.win 0).blk t).view.emb (ix2 p k)) = _
    refine congrArg _ ?_
    funext a; apply Fin.ext
    match a with
    | ⟨0, _⟩ => show win1_0.index t (0 : Fin 2) * 2000 + 1 * p.val = t.val * 2000 + p.val; omega
    | ⟨1, _⟩ => show win1_0.index t (1 : Fin 2) * 16 + 1 * k.val = k.val; omega
  have hw : iblk1 V c 1 t (ix2 k q) = V c main_arg4 (ix2 k q) := by
    show V c main_arg4 (((cfg1.win 1).blk t).view.emb (ix2 k q)) = _
    refine congrArg _ ?_
    funext a; apply Fin.ext
    match a with
    | ⟨0, _⟩ => show win1_1.index t (0 : Fin 2) * 16 + 1 * k.val = k.val; omega
    | ⟨1, _⟩ => show win1_1.index t (1 : Fin 2) * 7 + 1 * q.val = q.val; omega
  rw [hx, hw]

/-- An index of the result is in point `t`'s block iff each coordinate is in the block's range on its axis. -/
theorem mem_blk1 (t : Fin cfg1.N) (i : S100000x7.Idx) :
    i ∈ ((cfg1.win 2).blk t).view.set ↔ ∀ a : Fin 2, win1_2.index t a * S2000x7.size a ≤ (i a).val ∧ (i a).val < win1_2.index t a * S2000x7.size a + S2000x7.size a := by
  show i ∈ ((View.whole main_v48).slice (win1_2.rect t)).set ↔ _
  rw [View.set_slice_whole, Rect.mem_set_unit]
  exact Iff.rfl

/-- Row `r` of the result is written by point `r / 2000`: the blocks cover the array. -/
theorem cover1 (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  have hN : (i 0).val / 2000 < cfg1.N := lt_of_lt_of_eq (by omega : (i 0).val / 2000 < 50) (N_1 : cfg1.N = 50).symm
  obtain ⟨e0, e1, e2, e3, e4, e5⟩ := idx1 ⟨(i 0).val / 2000, hN⟩
  refine ⟨⟨(i 0).val / 2000, hN⟩, flush1_2 _, ?_⟩
  rw [mem_blk1]
  intro a
  match a with
  | ⟨0, _⟩ =>
    show win1_2.index ⟨(i 0).val / 2000, hN⟩ (0 : Fin 2) * 2000 ≤ (i 0).val ∧ (i 0).val < win1_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hN⟩ (1 : Fin 2) * 7 ≤ (i 1).val ∧ (i 1).val < win1_2.index ⟨(i 0).val / 2000, hN⟩ (1 : Fin 2) * 7 + 7
    rw [e5]; omega

/-- The result array after region 1: the whole product of the arrays the region finds. -/
theorem final1 (c : Dev nD) : (dat1 (F := Ideal) V c).arrAt 2 cfg1.N = dense7 (V c main_v47) (V c main_arg4) :=
  (dat1 (F := Ideal) V c).arrAt_eq_of_cover 2 _ (fun t _ => flushed1 V c t) cover1

end Cert.KernelIdeal.Tiles

end
-- ==== Proof.KernelValue.lean ====
import proofs.«100246_j86938728005962_1_alg».proof.Proof.Gen.KernelIdeal.Frame
import proofs.«100246_j86938728005962_1_alg».proof.Proof.Tiles
import Idealize.ShloMosaic.Lib.StableHlo.Run

/-!
# The kernel program's result is the network over the two regions' products

The program's buffers are followed boundary by boundary: the host operations before the first region leave the edge ends
and the edge weights; the first region leaves `x · W1` (`Tiles.final0`); the operations between the regions leave the
hidden layer; the second region leaves `hidden · W2` (`Tiles.final1`); the last operations leave the result. A buffer a
stretch or a region does not write keeps its contents. Composed, the result buffer holds `Stages.result` of the plain
contractions of the launch contents.
-/

set_option maxRecDepth 16384

noncomputable section

namespace Cert.KernelIdeal.KValue

open Cert.KernelIdeal Cert.KernelIdeal.Gen Cert.KernelIdeal.Stages
open Idealize.ShloMosaic Idealize.ShloMosaic.TcCoe Idealize.SL.Sem Idealize.ShloMosaic.StableHlo

section Host

variable {F : FTy → Type} [FloatOps F]
variable (m : (ℓ : Loc nD τ sig) → Buf (Elt F) ℓ) (ρ : Dev nD → PrngReg)

/-! ## Before the first region -/

/-- The sources with the self loops. -/
theorem src3 (c : Dev nD) : W3 m ρ c (Proc.devRef .tc main_v3) = srcs (m ((c : Thread nD τ).loc main_arg1)) := by
  show StableHlo.after hostOps0_2 (StableHlo.after hostOps0_1 (StableHlo.after hostOps0 (W0 m ρ c))) (Proc.devRef .tc main_v3) = _
  after_results
  rfl
/-- The destinations with the self loops. -/
theorem dst3 (c : Dev nD) : W3 m ρ c (Proc.devRef .tc main_v6) = dsts (m ((c : Thread nD τ).loc main_arg1)) := by
  show StableHlo.after hostOps0_2 (StableHlo.after hostOps0_1 (StableHlo.after hostOps0 (W0 m ρ c))) (Proc.devRef .tc main_v6) = _
  after_results
  rfl
set_option maxHeartbeats 8000000 in
/-- The edge weights. -/
theorem norm3 (c : Dev nD) : W3 m ρ c (Proc.devRef .tc main_v29) = norm (srcs (m ((c : Thread nD τ).loc main_arg1))) (dsts (m ((c : Thread nD τ).loc main_arg1))) := by
  show StableHlo.after hostOps0_2 (StableHlo.after hostOps0_1 (StableHlo.after hostOps0 (W0 m ρ c))) (Proc.devRef .tc main_v29) = _
  after_results
  rfl
/-- No operation before the first region writes `main_arg0`. -/
theorem arg0_3 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
/-- No operation before the first region writes `main_arg2`. -/
theorem arg2_3 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results
/-- No operation before the first region writes `main_arg3`. -/
theorem arg3_3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results
/-- No operation before the first region writes `main_arg4`. -/
theorem arg4_3 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results
/-- No operation before the first region writes `main_arg5`. -/
theorem arg5_3 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

/-! ## Across the first region: only its result array changes -/
theorem keep4_v3 (c : Dev nD) : W4 m ρ c (Proc.devRef .tc main_v3) = W3 m ρ c (Proc.devRef .tc main_v3) :=
  W4_of_ne m ρ c main_v3 (by decide)
theorem keep4_v6 (c : Dev nD) : W4 m ρ c (Proc.devRef .tc main_v6) = W3 m ρ c (Proc.devRef .tc main_v6) :=
  W4_of_ne m ρ c main_v6 (by decide)
theorem keep4_v29 (c : Dev nD) : W4 m ρ c (Proc.devRef .tc main_v29) = W3 m ρ c (Proc.devRef .tc main_v29) :=
  W4_of_ne m ρ c main_v29 (by decide)
theorem keep4_arg3 (c : Dev nD) : W4 m ρ c (Proc.devRef .tc main_arg3) = W3 m ρ c (Proc.devRef .tc main_arg3) :=
  W4_of_ne m ρ c main_arg3 (by decide)
theorem keep4_arg4 (c : Dev nD) : W4 m ρ c (Proc.devRef .tc main_arg4) = W3 m ρ c (Proc.devRef .tc main_arg4) :=
  W4_of_ne m ρ c main_arg4 (by decide)
theorem keep4_arg5 (c : Dev nD) : W4 m ρ c (Proc.devRef .tc main_arg5) = W3 m ρ c (Proc.devRef .tc main_arg5) :=
  W4_of_ne m ρ c main_arg5 (by decide)

/-! ## Between the regions -/

set_option maxHeartbeats 4000000 in
/-- The hidden layer, from the first region's result. -/
theorem hidden6 (c : Dev nD) : W6 m ρ c (Proc.devRef .tc main_v47)
    = relu16 (layer16 (W4 m ρ c (Proc.devRef .tc main_v30)) (W4 m ρ c (Proc.devRef .tc main_v3)) (W4 m ρ c (Proc.devRef .tc main_v6)) (W4 m ρ c (Proc.devRef .tc main_v29)) (W4 m ρ c (Proc.devRef .tc main_arg3))) := by
  show StableHlo.after hostOps1_1 (StableHlo.after hostOps1 (W4 m ρ c)) (Proc.devRef .tc main_v47) = _
  after_results_simp
  rfl
theorem keep6_v3 (c : Dev nD) : W6 m ρ c (Proc.devRef .tc main_v3) = W4 m ρ c (Proc.devRef .tc main_v3) := by
  show StableHlo.after hostOps1_1 (StableHlo.after hostOps1 (W4 m ρ c)) (Proc.devRef .tc main_v3) = _
  after_results
theorem keep6_v6 (c : Dev nD) : W6 m ρ c (Proc.devRef .tc main_v6) = W4 m ρ c (Proc.devRef .tc main_v6) := by
  show StableHlo.after hostOps1_1 (StableHlo.after hostOps1 (W4 m ρ c)) (Proc.devRef .tc main_v6) = _
  after_results
theorem keep6_v29 (c : Dev nD) : W6 m ρ c (Proc.devRef .tc main_v29) = W4 m ρ c (Proc.devRef .tc main_v29) := by
  show StableHlo.after hostOps1_1 (StableHlo.after hostOps1 (W4 m ρ c)) (Proc.devRef .tc main_v29) = _
  after_results
theorem keep6_arg4 (c : Dev nD) : W6 m ρ c (Proc.devRef .tc main_arg4) = W4 m ρ c (Proc.devRef .tc main_arg4) := by
  show StableHlo.after hostOps1_1 (StableHlo.after hostOps1 (W4 m ρ c)) (Proc.devRef .tc main_arg4) = _
  after_results
theorem keep6_arg5 (c : Dev nD) : W6 m ρ c (Proc.devRef .tc main_arg5) = W4 m ρ c (Proc.devRef .tc main_arg5) := by
  show StableHlo.after hostOps1_1 (StableHlo.after hostOps1 (W4 m ρ c)) (Proc.devRef .tc main_arg5) = _
  after_results

/-! ## Across the second region -/
theorem keep7_v3 (c : Dev nD) : W7 m ρ c (Proc.devRef .tc main_v3) = W6 m ρ c (Proc.devRef .tc main_v3) :=
  W7_of_ne m ρ c main_v3 (by decide)
theorem keep7_v6 (c : Dev nD) : W7 m ρ c (Proc.devRef .tc main_v6) = W6 m ρ c (Proc.devRef .tc main_v6) :=
  W7_of_ne m ρ c main_v6 (by decide)
theorem keep7_v29 (c : Dev nD) : W7 m ρ c (Proc.devRef .tc main_v29) = W6 m ρ c (Proc.devRef .tc main_v29) :=
  W7_of_ne m ρ c main_v29 (by decide)
theorem keep7_arg5 (c : Dev nD) : W7 m ρ c (Proc.devRef .tc main_arg5) = W6 m ρ c (Proc.devRef .tc main_arg5) :=
  W7_of_ne m ρ c main_arg5 (by decide)

/-! ## After the second region -/

set_option maxHeartbeats 4000000 in
/-- The result, from the second region's result. -/
theorem out8 (c : Dev nD) : W8 m ρ c (Proc.devRef .tc main_v64)
    = layer7 (W7 m ρ c (Proc.devRef .tc main_v48)) (W7 m ρ c (Proc.devRef .tc main_v3)) (W7 m ρ c (Proc.devRef .tc main_v6)) (W7 m ρ c (Proc.devRef .tc main_v29)) (W7 m ρ c (Proc.devRef .tc main_arg5)) := by
  show StableHlo.after hostOps2 (W7 m ρ c) (Proc.devRef .tc main_v64) = _
  after_results_simp
  rfl

/-! ## The kept buffers, read back to the launch -/

theorem src7 (c : Dev nD) : W7 m ρ c (Proc.devRef .tc main_v3) = srcs (m ((c : Thread nD τ).loc main_arg1)) :=
  (keep7_v3 m ρ c).trans ((keep6_v3 m ρ c).trans ((keep4_v3 m ρ c).trans (src3 m ρ c)))
theorem dst7 (c : Dev nD) : W7 m ρ c (Proc.devRef .tc main_v6) = dsts (m ((c : Thread nD τ).loc main_arg1)) :=
  (keep7_v6 m ρ c).trans ((keep6_v6 m ρ c).trans ((keep4_v6 m ρ c).trans (dst3 m ρ c)))
theorem norm7 (c : Dev nD) : W7 m ρ c (Proc.devRef .tc main_v29) = norm (srcs (m ((c : Thread nD τ).loc main_arg1))) (dsts (m ((c : Thread nD τ).loc main_arg1))) :=
  (keep7_v29 m ρ c).trans ((keep6_v29 m ρ c).trans ((keep4_v29 m ρ c).trans (norm3 m ρ c)))
theorem arg5_7 (c : Dev nD) : W7 m ρ c (Proc.devRef .tc main_arg5) = m ((c : Thread nD τ).loc main_arg5) :=
  (keep7_arg5 m ρ c).trans ((keep6_arg5 m ρ c).trans ((keep4_arg5 m ρ c).trans (arg5_3 m ρ c)))
theorem arg4_6 (c : Dev nD) : W6 m ρ c (Proc.devRef .tc main_arg4) = m ((c : Thread nD τ).loc main_arg4) :=
  (keep6_arg4 m ρ c).trans ((keep4_arg4 m ρ c).trans (arg4_3 m ρ c))
theorem src4 (c : Dev nD) : W4 m ρ c (Proc.devRef .tc main_v3) = srcs (m ((c : Thread nD τ).loc main_arg1)) := (keep4_v3 m ρ c).trans (src3 m ρ c)
theorem dst4 (c : Dev nD) : W4 m ρ c (Proc.devRef .tc main_v6) = dsts (m ((c : Thread nD τ).loc main_arg1)) := (keep4_v6 m ρ c).trans (dst3 m ρ c)
theorem norm4 (c : Dev nD) : W4 m ρ c (Proc.devRef .tc main_v29) = norm (srcs (m ((c : Thread nD τ).loc main_arg1))) (dsts (m ((c : Thread nD τ).loc main_arg1))) := (keep4_v29 m ρ c).trans (norm3 m ρ c)
theorem arg3_4 (c : Dev nD) : W4 m ρ c (Proc.devRef .tc main_arg3) = m ((c : Thread nD τ).loc main_arg3) := (keep4_arg3 m ρ c).trans (arg3_3 m ρ c)

end Host

/-! ## The regions' results, at the ideal instance -/

section Value

variable (m : (ℓ : Loc nD τ sig) → Buf (Elt Ideal) ℓ) (ρ : Dev nD → PrngReg)

/-- After the first region its result array holds `x · W1` of the launch contents. -/
theorem h0_4 (c : Dev nD) : W4 m ρ c (Proc.devRef .tc main_v30) = dense16 (m ((c : Thread nD τ).loc main_arg0)) (m ((c : Thread nD τ).loc main_arg2)) := by
  refine (W4_arr m ρ c 2).trans ((Tiles.final0 (V3 m ρ) c).trans ?_)
  show dense16 (W3 m ρ c (Proc.devRef .tc main_arg0)) (W3 m ρ c (Proc.devRef .tc main_arg2)) = _
  rw [arg0_3, arg2_3]

/-- After the second region its result array holds `hidden · W2` of what the region finds. -/
theorem h2_7 (c : Dev nD) : W7 m ρ c (Proc.devRef .tc main_v48) = dense7 (W6 m ρ c (Proc.devRef .tc main_v47)) (m ((c : Thread nD τ).loc main_arg4)) := by
  refine (W7_arr m ρ c 2).trans ((Tiles.final1 (V6 m ρ) c).trans ?_)
  show dense7 (W6 m ρ c (Proc.devRef .tc main_v47)) (W6 m ρ c (Proc.devRef .tc main_arg4)) = _
  rw [arg4_6]

/-- THE RESULT BUFFER at the last boundary: the network over the plain contractions, of the launch contents. -/
theorem value (c : Dev nD) : W8 m ρ c (Proc.devRef .tc main_v64)
    = result dense16 dense7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [out8, src7, dst7, norm7, arg5_7, h2_7, hidden6, src4, dst4, norm4, arg3_4, h0_4]
  rfl

end Value

end Cert.KernelIdeal.KValue

end
-- ==== Proof.RefValue.lean ====
import proofs.«100246_j86938728005962_1_alg».proof.Proof.RefRun
import proofs.«100246_j86938728005962_1_alg».proof.Proof.Stages

/-!
# The reference's result is the network over the host's own contractions

The reference run's composed term is, operation for operation, the stages of `Stages` around its two `dot_general`
contractions, whose dimension records have the fields of the plain contraction `[M, K] × [K, N]`: unfolding the stages'
names on one side and the run's name on the other leaves one term.
-/

set_option maxRecDepth 16384

noncomputable section

namespace Cert.ReferenceIdeal.RefValue

open Cert.KernelIdeal.Stages Idealize.ShloMosaic Idealize.ShloMosaic.TcCoe Idealize.SL.Sem
open Cert.ReferenceIdeal

variable {F : FTy → Type} [FloatOps F]

/-- The reference's result: the network of `Stages.result` over the plain contractions, of the launch contents of its
    six arguments. -/
theorem res_eq (m : (ℓ : Loc nD τ sig) → Buf (Elt F) ℓ) (c : Dev nD) :
    Cert.ReferenceIdeal.ValueP.res_main_v64 m c
      = result dense16 dense7 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := rfl

end Cert.ReferenceIdeal.RefValue

end
-- ==== Proof.lean ====
/-
  A two-layer graph convolution over 100000 nodes and 3200000 edges (one self loop per node appended):
  `out = Â · relu(Â · (x · W1) + b1) · W2 + b2`, where `Â` gathers rows at the edges' sources, scales each by
  `deg[src]^(-1/2) · deg[dst]^(-1/2)` and scatter-adds them at the destinations. The kernel program computes the two dense
  products `x · W1` ([100000, 512] × [512, 16]) and `h · W2` ([100000, 16] × [16, 7]) in 50 row blocks of 2000 rows each,
  a matrix product into a zero accumulator per block; the reference computes them as whole contractions. Everything else —
  the degrees, the edge weights, the gathers, the scatter-adds, the biases and the relu — is the same sequence of host
  operations in both programs.

  On the extended reals a block's matrix product at an entry is `∑ k, a[p, k] · b[k, q]`, and so is the whole contraction;
  row `2000 t + p` of the array is row `p` of block `t`, and the 50 blocks cover the rows. So each region leaves the
  whole product (`Tiles`), the kernel program's result buffer holds the network of `Stages.result` over the plain
  contractions (`KernelValue`), and the reference's composed term is that same network (`RefValue`). No law of the
  extended reals beyond reading both products as the same finite sum is used, so the inputs' finiteness is not needed.
  The ideal pass rewrote nothing, so `preserves` is trivial.
-/
import proofs.«100246_j86938728005962_1_alg».proof.Defs
import proofs.«100246_j86938728005962_1_alg».proof.Proof.Gen.Kernel
import proofs.«100246_j86938728005962_1_alg».proof.Proof.Gen.Kernel.Frame
import proofs.«100246_j86938728005962_1_alg».proof.Proof.Gen.KernelIdeal
import proofs.«100246_j86938728005962_1_alg».proof.Proof.Gen.KernelIdeal.Frame
import proofs.«100246_j86938728005962_1_alg».proof.Proof.Gen.ReferenceIdeal
import proofs.«100246_j86938728005962_1_alg».proof.Proof.Gen.Pre_finite_inputs
import proofs.«100246_j86938728005962_1_alg».proof.Proof.KernelRun
import proofs.«100246_j86938728005962_1_alg».proof.Proof.KernelValue
import proofs.«100246_j86938728005962_1_alg».proof.Proof.RefRun
import proofs.«100246_j86938728005962_1_alg».proof.Proof.RefValue
import Idealize.ShloMosaic.Adequacy
import Idealize.ShloMosaic.Init

noncomputable section

namespace Cert.Proof

open Idealize.ShloMosaic Idealize.ShloMosaic.TcCoe Idealize.SL.Sem Cert.KernelIdeal.Stages

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the network over the plain contractions of the (agreeing) arguments. -/
theorem algebraic : Cert.algebraic_KernelIdeal_ReferenceIdeal := by
  intro m ρ m' ρ' _ hagree
  refine ⟨fun c => result dense16 dense7 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.value m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.ValueP.run (F := Ideal) m' ρ')
    have e := hagree c
    rw [Cert.ReferenceIdeal.RefValue.res_eq m' c, e.1, e.2.1, e.2.2.1, e.2.2.2.1, e.2.2.2.2.1, e.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
